-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16x64 : Shape := ⟨3, ![10000, 16, 64]⟩
abbrev S_ : Shape := ⟨0, ![]⟩

class Facts : Prop where
  bcast_S_S10000x16x64 : S_.BroadcastsInDim S10000x16x64 (![] : Fin 0 → Fin S10000x16x64.rank)
  reducesTo_S10000x16x64_S_d0_1_2 : S10000x16x64.ReducesTo [0, 1, 2] S_
  h_S_ : 0 < S_.numel

variable [Facts]

def fn {F : FTy → Type} [FloatOps F] (main_arg0 : FVec F S10000x16x64 .f32) (main_arg1 : FVec F S10000x16x64 .f32) : IVec S_ 1 :=
  let main_v0 : FVec F S10000x16x64 .f32 := Host.absf main_arg0
  let main_cst : FVec F S_ .f32 := constant S_ .f32 0x7F800000#32
  let main_v1 : FVec F S10000x16x64 .f32 := broadcastInDim S10000x16x64 ![] bcast_S_S10000x16x64 main_cst
  let main_v2 : IVec S10000x16x64 1 := cmpf .olt main_v0 main_v1
  let main_c : IVec S_ 1 := constantI S_ 1 1#1
  let main_v3 : IVec S_ 1 := (fun x v => Host.reduce IntOp.andi x v reducesTo_S10000x16x64_S_d0_1_2 h_S_) main_v2 main_c
  let main_v4 : FVec F S10000x16x64 .f32 := Host.absf main_arg1
  let main_cst_0 : FVec F S_ .f32 := constant S_ .f32 0x7F800000#32
  let main_v5 : FVec F S10000x16x64 .f32 := broadcastInDim S10000x16x64 ![] bcast_S_S10000x16x64 main_cst_0
  let main_v6 : IVec S10000x16x64 1 := cmpf .olt main_v4 main_v5
  let main_c_1 : IVec S_ 1 := constantI S_ 1 1#1
  let main_v7 : IVec S_ 1 := (fun x v => Host.reduce IntOp.andi x v reducesTo_S10000x16x64_S_d0_1_2 h_S_) main_v6 main_c_1
  let main_v8 : IVec S_ 1 := andi main_v3 main_v7
  main_v8
-- ==== Kernel.lean ====
abbrev S10000x16x64 : Shape := ⟨3, ![10000, 16, 64]⟩
abbrev S10000x99x64 : Shape := ⟨3, ![10000, 99, 64]⟩
abbrev S500x16x64 : Shape := ⟨3, ![500, 16, 64]⟩
abbrev S500x99x64 : Shape := ⟨3, ![500, 99, 64]⟩
abbrev S500x1x64 : Shape := ⟨3, ![500, 1, 64]⟩
abbrev S500x64 : Shape := ⟨2, ![500, 64]⟩

abbrev nBuf : Space → Nat
  | .hbm => 3
  | .vmem => 6
  | .smem => 0
  | _ => 0

abbrev bufTy : (tb : Table) → Fin (tcTables nBuf tb) → BufTy
  | .hbm, ⟨0, _⟩ => ⟨S10000x16x64, .f32⟩
  | .hbm, ⟨1, _⟩ => ⟨S10000x16x64, .f32⟩
  | .hbm, ⟨2, _⟩ => ⟨S10000x99x64, .f32⟩
  | .local _ .vmem, ⟨0, _⟩ => ⟨S500x16x64, .f32⟩
  | .local _ .vmem, ⟨1, _⟩ => ⟨S500x16x64, .f32⟩
  | .local _ .vmem, ⟨2, _⟩ => ⟨S500x16x64, .f32⟩
  | .local _ .vmem, ⟨3, _⟩ => ⟨S500x16x64, .f32⟩
  | .local _ .vmem, ⟨4, _⟩ => ⟨S500x99x64, .f32⟩
  | .local _ .vmem, ⟨5, _⟩ => ⟨S500x99x64, .f32⟩
  | _, _ => ⟨S10000x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S500x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S500x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S500x99x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S500x16x64_S500x1x64_0_0_0 : ∀ a, (![0, 0, 0] : Fin 3 → Nat) a + S500x1x64.size a ≤ S500x16x64.size a
  h_S500x1x64 : 0 < S500x1x64.numel
  shapeCasts_S500x1x64_S500x64 : S500x1x64.ShapeCasts S500x64
  inb_S500x99x64_S500x1x64_0_0_0 : ∀ a, (![0, 0, 0] : Fin 3 → Nat) a + S500x1x64.size a ≤ S500x99x64.size a
  shapeCasts_S500x64_S500x1x64 : S500x64.ShapeCasts S500x1x64
  inb_S500x16x64_S500x1x64_0_1_0 : ∀ a, (![0, 1, 0] : Fin 3 → Nat) a + S500x1x64.size a ≤ S500x16x64.size a
  inb_S500x99x64_S500x1x64_0_1_0 : ∀ a, (![0, 1, 0] : Fin 3 → Nat) a + S500x1x64.size a ≤ S500x99x64.size a
  inb_S500x16x64_S500x1x64_0_2_0 : ∀ a, (![0, 2, 0] : Fin 3 → Nat) a + S500x1x64.size a ≤ S500x16x64.size a
  inb_S500x99x64_S500x1x64_0_2_0 : ∀ a, (![0, 2, 0] : Fin 3 → Nat) a + S500x1x64.size a ≤ S500x99x64.size a
  inb_S500x16x64_S500x1x64_0_3_0 : ∀ a, (![0, 3, 0] : Fin 3 → Nat) a + S500x1x64.size a ≤ S500x16x64.size a
  inb_S500x99x64_S500x1x64_0_3_0 : ∀ a, (![0, 3, 0] : Fin 3 → Nat) a + S500x1x64.size a ≤ S500x99x64.size a
  inb_S500x16x64_S500x1x64_0_4_0 : ∀ a, (![0, 4, 0] : Fin 3 → Nat) a + S500x1x64.size a ≤ S500x16x64.size a
  inb_S500x99x64_S500x1x64_0_4_0 : ∀ a, (![0, 4, 0] : Fin 3 → Nat) a + S500x1x64.size a ≤ S500x99x64.size a
  inb_S500x16x64_S500x1x64_0_5_0 : ∀ a, (![0, 5, 0] : Fin 3 → Nat) a + S500x1x64.size a ≤ S500x16x64.size a
  inb_S500x99x64_S500x1x64_0_5_0 : ∀ a, (![0, 5, 0] : Fin 3 → Nat) a + S500x1x64.size a ≤ S500x99x64.size a
  inb_S500x16x64_S500x1x64_0_6_0 : ∀ a, (![0, 6, 0] : Fin 3 → Nat) a + S500x1x64.size a ≤ S500x16x64.size a
  inb_S500x99x64_S500x1x64_0_6_0 : ∀ a, (![0, 6, 0] : Fin 3 → Nat) a + S500x1x64.size a ≤ S500x99x64.size a
  inb_S500x16x64_S500x1x64_0_7_0 : ∀ a, (![0, 7, 0] : Fin 3 → Nat) a + S500x1x64.size a ≤ S500x16x64.size a
  inb_S500x99x64_S500x1x64_0_7_0 : ∀ a, (![0, 7, 0] : Fin 3 → Nat) a + S500x1x64.size a ≤ S500x99x64.size a
  inb_S500x16x64_S500x1x64_0_8_0 : ∀ a, (![0, 8, 0] : Fin 3 → Nat) a + S500x1x64.size a ≤ S500x16x64.size a
  inb_S500x99x64_S500x1x64_0_8_0 : ∀ a, (![0, 8, 0] : Fin 3 → Nat) a + S500x1x64.size a ≤ S500x99x64.size a
  inb_S500x16x64_S500x1x64_0_9_0 : ∀ a, (![0, 9, 0] : Fin 3 → Nat) a + S500x1x64.size a ≤ S500x16x64.size a
  inb_S500x99x64_S500x1x64_0_9_0 : ∀ a, (![0, 9, 0] : Fin 3 → Nat) a + S500x1x64.size a ≤ S500x99x64.size a
  inb_S500x16x64_S500x1x64_0_10_0 : ∀ a, (![0, 10, 0] : Fin 3 → Nat) a + S500x1x64.size a ≤ S500x16x64.size a
  inb_S500x99x64_S500x1x64_0_10_0 : ∀ a, (![0, 10, 0] : Fin 3 → Nat) a + S500x1x64.size a ≤ S500x99x64.size a
  inb_S500x16x64_S500x1x64_0_11_0 : ∀ a, (![0, 11, 0] : Fin 3 → Nat) a + S500x1x64.size a ≤ S500x16x64.size a
  inb_S500x99x64_S500x1x64_0_11_0 : ∀ a, (![0, 11, 0] : Fin 3 → Nat) a + S500x1x64.size a ≤ S500x99x64.size a
  inb_S500x16x64_S500x1x64_0_12_0 : ∀ a, (![0, 12, 0] : Fin 3 → Nat) a + S500x1x64.size a ≤ S500x16x64.size a
  inb_S500x99x64_S500x1x64_0_12_0 : ∀ a, (![0, 12, 0] : Fin 3 → Nat) a + S500x1x64.size a ≤ S500x99x64.size a
  inb_S500x16x64_S500x1x64_0_13_0 : ∀ a, (![0, 13, 0] : Fin 3 → Nat) a + S500x1x64.size a ≤ S500x16x64.size a
  inb_S500x99x64_S500x1x64_0_13_0 : ∀ a, (![0, 13, 0] : Fin 3 → Nat) a + S500x1x64.size a ≤ S500x99x64.size a
  inb_S500x16x64_S500x1x64_0_14_0 : ∀ a, (![0, 14, 0] : Fin 3 → Nat) a + S500x1x64.size a ≤ S500x16x64.size a
  inb_S500x99x64_S500x1x64_0_14_0 : ∀ a, (![0, 14, 0] : Fin 3 → Nat) a + S500x1x64.size a ≤ S500x99x64.size a
  inb_S500x16x64_S500x1x64_0_15_0 : ∀ a, (![0, 15, 0] : Fin 3 → Nat) a + S500x1x64.size a ≤ S500x16x64.size a
  inb_S500x99x64_S500x1x64_0_15_0 : ∀ a, (![0, 15, 0] : Fin 3 → Nat) a + S500x1x64.size a ≤ S500x99x64.size a
  inb_S500x99x64_S500x1x64_0_16_0 : ∀ a, (![0, 16, 0] : Fin 3 → Nat) a + S500x1x64.size a ≤ S500x99x64.size a
  inb_S500x99x64_S500x1x64_0_17_0 : ∀ a, (![0, 17, 0] : Fin 3 → Nat) a + S500x1x64.size a ≤ S500x99x64.size a
  inb_S500x99x64_S500x1x64_0_18_0 : ∀ a, (![0, 18, 0] : Fin 3 → Nat) a + S500x1x64.size a ≤ S500x99x64.size a
  inb_S500x99x64_S500x1x64_0_19_0 : ∀ a, (![0, 19, 0] : Fin 3 → Nat) a + S500x1x64.size a ≤ S500x99x64.size a
  inb_S500x99x64_S500x1x64_0_20_0 : ∀ a, (![0, 20, 0] : Fin 3 → Nat) a + S500x1x64.size a ≤ S500x99x64.size a
  inb_S500x99x64_S500x1x64_0_21_0 : ∀ a, (![0, 21, 0] : Fin 3 → Nat) a + S500x1x64.size a ≤ S500x99x64.size a
  inb_S500x99x64_S500x1x64_0_22_0 : ∀ a, (![0, 22, 0] : Fin 3 → Nat) a + S500x1x64.size a ≤ S500x99x64.size a
  inb_S500x99x64_S500x1x64_0_23_0 : ∀ a, (![0, 23, 0] : Fin 3 → Nat) a + S500x1x64.size a ≤ S500x99x64.size a
  inb_S500x99x64_S500x1x64_0_24_0 : ∀ a, (![0, 24, 0] : Fin 3 → Nat) a + S500x1x64.size a ≤ S500x99x64.size a
  inb_S500x99x64_S500x1x64_0_25_0 : ∀ a, (![0, 25, 0] : Fin 3 → Nat) a + S500x1x64.size a ≤ S500x99x64.size a
  inb_S500x99x64_S500x1x64_0_26_0 : ∀ a, (![0, 26, 0] : Fin 3 → Nat) a + S500x1x64.size a ≤ S500x99x64.size a
  inb_S500x99x64_S500x1x64_0_27_0 : ∀ a, (![0, 27, 0] : Fin 3 → Nat) a + S500x1x64.size a ≤ S500x99x64.size a
  inb_S500x99x64_S500x1x64_0_28_0 : ∀ a, (![0, 28, 0] : Fin 3 → Nat) a + S500x1x64.size a ≤ S500x99x64.size a
  inb_S500x99x64_S500x1x64_0_29_0 : ∀ a, (![0, 29, 0] : Fin 3 → Nat) a + S500x1x64.size a ≤ S500x99x64.size a
  inb_S500x99x64_S500x1x64_0_30_0 : ∀ a, (![0, 30, 0] : Fin 3 → Nat) a + S500x1x64.size a ≤ S500x99x64.size a
  inb_S500x99x64_S500x1x64_0_31_0 : ∀ a, (![0, 31, 0] : Fin 3 → Nat) a + S500x1x64.size a ≤ S500x99x64.size a
  inb_S500x99x64_S500x1x64_0_32_0 : ∀ a, (![0, 32, 0] : Fin 3 → Nat) a + S500x1x64.size a ≤ S500x99x64.size a
  inb_S500x99x64_S500x1x64_0_33_0 : ∀ a, (![0, 33, 0] : Fin 3 → Nat) a + S500x1x64.size a ≤ S500x99x64.size a
  inb_S500x99x64_S500x1x64_0_34_0 : ∀ a, (![0, 34, 0] : Fin 3 → Nat) a + S500x1x64.size a ≤ S500x99x64.size a
  inb_S500x99x64_S500x1x64_0_35_0 : ∀ a, (![0, 35, 0] : Fin 3 → Nat) a + S500x1x64.size a ≤ S500x99x64.size a
  inb_S500x99x64_S500x1x64_0_36_0 : ∀ a, (![0, 36, 0] : Fin 3 → Nat) a + S500x1x64.size a ≤ S500x99x64.size a
  inb_S500x99x64_S500x1x64_0_37_0 : ∀ a, (![0, 37, 0] : Fin 3 → Nat) a + S500x1x64.size a ≤ S500x99x64.size a
  inb_S500x99x64_S500x1x64_0_38_0 : ∀ a, (![0, 38, 0] : Fin 3 → Nat) a + S500x1x64.size a ≤ S500x99x64.size a
  inb_S500x99x64_S500x1x64_0_39_0 : ∀ a, (![0, 39, 0] : Fin 3 → Nat) a + S500x1x64.size a ≤ S500x99x64.size a
  inb_S500x99x64_S500x1x64_0_40_0 : ∀ a, (![0, 40, 0] : Fin 3 → Nat) a + S500x1x64.size a ≤ S500x99x64.size a
  inb_S500x99x64_S500x1x64_0_41_0 : ∀ a, (![0, 41, 0] : Fin 3 → Nat) a + S500x1x64.size a ≤ S500x99x64.size a
  inb_S500x99x64_S500x1x64_0_42_0 : ∀ a, (![0, 42, 0] : Fin 3 → Nat) a + S500x1x64.size a ≤ S500x99x64.size a
  inb_S500x99x64_S500x1x64_0_43_0 : ∀ a, (![0, 43, 0] : Fin 3 → Nat) a + S500x1x64.size a ≤ S500x99x64.size a
  inb_S500x99x64_S500x1x64_0_44_0 : ∀ a, (![0, 44, 0] : Fin 3 → Nat) a + S500x1x64.size a ≤ S500x99x64.size a
  inb_S500x99x64_S500x1x64_0_45_0 : ∀ a, (![0, 45, 0] : Fin 3 → Nat) a + S500x1x64.size a ≤ S500x99x64.size a
  inb_S500x99x64_S500x1x64_0_46_0 : ∀ a, (![0, 46, 0] : Fin 3 → Nat) a + S500x1x64.size a ≤ S500x99x64.size a
  inb_S500x99x64_S500x1x64_0_47_0 : ∀ a, (![0, 47, 0] : Fin 3 → Nat) a + S500x1x64.size a ≤ S500x99x64.size a
  inb_S500x99x64_S500x1x64_0_48_0 : ∀ a, (![0, 48, 0] : Fin 3 → Nat) a + S500x1x64.size a ≤ S500x99x64.size a
  inb_S500x99x64_S500x1x64_0_49_0 : ∀ a, (![0, 49, 0] : Fin 3 → Nat) a + S500x1x64.size a ≤ S500x99x64.size a
  inb_S500x99x64_S500x1x64_0_50_0 : ∀ a, (![0, 50, 0] : Fin 3 → Nat) a + S500x1x64.size a ≤ S500x99x64.size a
  inb_S500x99x64_S500x1x64_0_51_0 : ∀ a, (![0, 51, 0] : Fin 3 → Nat) a + S500x1x64.size a ≤ S500x99x64.size a
  inb_S500x99x64_S500x1x64_0_52_0 : ∀ a, (![0, 52, 0] : Fin 3 → Nat) a + S500x1x64.size a ≤ S500x99x64.size a
  inb_S500x99x64_S500x1x64_0_53_0 : ∀ a, (![0, 53, 0] : Fin 3 → Nat) a + S500x1x64.size a ≤ S500x99x64.size a
  inb_S500x99x64_S500x1x64_0_54_0 : ∀ a, (![0, 54, 0] : Fin 3 → Nat) a + S500x1x64.size a ≤ S500x99x64.size a
  inb_S500x99x64_S500x1x64_0_55_0 : ∀ a, (![0, 55, 0] : Fin 3 → Nat) a + S500x1x64.size a ≤ S500x99x64.size a
  inb_S500x99x64_S500x1x64_0_56_0 : ∀ a, (![0, 56, 0] : Fin 3 → Nat) a + S500x1x64.size a ≤ S500x99x64.size a
  inb_S500x99x64_S500x1x64_0_57_0 : ∀ a, (![0, 57, 0] : Fin 3 → Nat) a + S500x1x64.size a ≤ S500x99x64.size a
  inb_S500x99x64_S500x1x64_0_58_0 : ∀ a, (![0, 58, 0] : Fin 3 → Nat) a + S500x1x64.size a ≤ S500x99x64.size a
  inb_S500x99x64_S500x1x64_0_59_0 : ∀ a, (![0, 59, 0] : Fin 3 → Nat) a + S500x1x64.size a ≤ S500x99x64.size a
  inb_S500x99x64_S500x1x64_0_60_0 : ∀ a, (![0, 60, 0] : Fin 3 → Nat) a + S500x1x64.size a ≤ S500x99x64.size a
  inb_S500x99x64_S500x1x64_0_61_0 : ∀ a, (![0, 61, 0] : Fin 3 → Nat) a + S500x1x64.size a ≤ S500x99x64.size a
  inb_S500x99x64_S500x1x64_0_62_0 : ∀ a, (![0, 62, 0] : Fin 3 → Nat) a + S500x1x64.size a ≤ S500x99x64.size a
  inb_S500x99x64_S500x1x64_0_63_0 : ∀ a, (![0, 63, 0] : Fin 3 → Nat) a + S500x1x64.size a ≤ S500x99x64.size a
  inb_S500x99x64_S500x1x64_0_64_0 : ∀ a, (![0, 64, 0] : Fin 3 → Nat) a + S500x1x64.size a ≤ S500x99x64.size a
  inb_S500x99x64_S500x1x64_0_65_0 : ∀ a, (![0, 65, 0] : Fin 3 → Nat) a + S500x1x64.size a ≤ S500x99x64.size a
  inb_S500x99x64_S500x1x64_0_66_0 : ∀ a, (![0, 66, 0] : Fin 3 → Nat) a + S500x1x64.size a ≤ S500x99x64.size a
  inb_S500x99x64_S500x1x64_0_67_0 : ∀ a, (![0, 67, 0] : Fin 3 → Nat) a + S500x1x64.size a ≤ S500x99x64.size a
  inb_S500x99x64_S500x1x64_0_68_0 : ∀ a, (![0, 68, 0] : Fin 3 → Nat) a + S500x1x64.size a ≤ S500x99x64.size a
  inb_S500x99x64_S500x1x64_0_69_0 : ∀ a, (![0, 69, 0] : Fin 3 → Nat) a + S500x1x64.size a ≤ S500x99x64.size a
  inb_S500x99x64_S500x1x64_0_70_0 : ∀ a, (![0, 70, 0] : Fin 3 → Nat) a + S500x1x64.size a ≤ S500x99x64.size a
  inb_S500x99x64_S500x1x64_0_71_0 : ∀ a, (![0, 71, 0] : Fin 3 → Nat) a + S500x1x64.size a ≤ S500x99x64.size a
  inb_S500x99x64_S500x1x64_0_72_0 : ∀ a, (![0, 72, 0] : Fin 3 → Nat) a + S500x1x64.size a ≤ S500x99x64.size a
  inb_S500x99x64_S500x1x64_0_73_0 : ∀ a, (![0, 73, 0] : Fin 3 → Nat) a + S500x1x64.size a ≤ S500x99x64.size a
  inb_S500x99x64_S500x1x64_0_74_0 : ∀ a, (![0, 74, 0] : Fin 3 → Nat) a + S500x1x64.size a ≤ S500x99x64.size a
  inb_S500x99x64_S500x1x64_0_75_0 : ∀ a, (![0, 75, 0] : Fin 3 → Nat) a + S500x1x64.size a ≤ S500x99x64.size a
  inb_S500x99x64_S500x1x64_0_76_0 : ∀ a, (![0, 76, 0] : Fin 3 → Nat) a + S500x1x64.size a ≤ S500x99x64.size a
  inb_S500x99x64_S500x1x64_0_77_0 : ∀ a, (![0, 77, 0] : Fin 3 → Nat) a + S500x1x64.size a ≤ S500x99x64.size a
  inb_S500x99x64_S500x1x64_0_78_0 : ∀ a, (![0, 78, 0] : Fin 3 → Nat) a + S500x1x64.size a ≤ S500x99x64.size a
  inb_S500x99x64_S500x1x64_0_79_0 : ∀ a, (![0, 79, 0] : Fin 3 → Nat) a + S500x1x64.size a ≤ S500x99x64.size a
  inb_S500x99x64_S500x1x64_0_80_0 : ∀ a, (![0, 80, 0] : Fin 3 → Nat) a + S500x1x64.size a ≤ S500x99x64.size a
  inb_S500x99x64_S500x1x64_0_81_0 : ∀ a, (![0, 81, 0] : Fin 3 → Nat) a + S500x1x64.size a ≤ S500x99x64.size a
  inb_S500x99x64_S500x1x64_0_82_0 : ∀ a, (![0, 82, 0] : Fin 3 → Nat) a + S500x1x64.size a ≤ S500x99x64.size a
  inb_S500x99x64_S500x1x64_0_83_0 : ∀ a, (![0, 83, 0] : Fin 3 → Nat) a + S500x1x64.size a ≤ S500x99x64.size a
  inb_S500x99x64_S500x1x64_0_84_0 : ∀ a, (![0, 84, 0] : Fin 3 → Nat) a + S500x1x64.size a ≤ S500x99x64.size a
  inb_S500x99x64_S500x1x64_0_85_0 : ∀ a, (![0, 85, 0] : Fin 3 → Nat) a + S500x1x64.size a ≤ S500x99x64.size a
  inb_S500x99x64_S500x1x64_0_86_0 : ∀ a, (![0, 86, 0] : Fin 3 → Nat) a + S500x1x64.size a ≤ S500x99x64.size a
  inb_S500x99x64_S500x1x64_0_87_0 : ∀ a, (![0, 87, 0] : Fin 3 → Nat) a + S500x1x64.size a ≤ S500x99x64.size a
  inb_S500x99x64_S500x1x64_0_88_0 : ∀ a, (![0, 88, 0] : Fin 3 → Nat) a + S500x1x64.size a ≤ S500x99x64.size a
  inb_S500x99x64_S500x1x64_0_89_0 : ∀ a, (![0, 89, 0] : Fin 3 → Nat) a + S500x1x64.size a ≤ S500x99x64.size a
  inb_S500x99x64_S500x1x64_0_90_0 : ∀ a, (![0, 90, 0] : Fin 3 → Nat) a + S500x1x64.size a ≤ S500x99x64.size a
  inb_S500x99x64_S500x1x64_0_91_0 : ∀ a, (![0, 91, 0] : Fin 3 → Nat) a + S500x1x64.size a ≤ S500x99x64.size a
  inb_S500x99x64_S500x1x64_0_92_0 : ∀ a, (![0, 92, 0] : Fin 3 → Nat) a + S500x1x64.size a ≤ S500x99x64.size a
  inb_S500x99x64_S500x1x64_0_93_0 : ∀ a, (![0, 93, 0] : Fin 3 → Nat) a + S500x1x64.size a ≤ S500x99x64.size a
  inb_S500x99x64_S500x1x64_0_94_0 : ∀ a, (![0, 94, 0] : Fin 3 → Nat) a + S500x1x64.size a ≤ S500x99x64.size a
  inb_S500x99x64_S500x1x64_0_95_0 : ∀ a, (![0, 95, 0] : Fin 3 → Nat) a + S500x1x64.size a ≤ S500x99x64.size a
  inb_S500x99x64_S500x1x64_0_96_0 : ∀ a, (![0, 96, 0] : Fin 3 → Nat) a + S500x1x64.size a ≤ S500x99x64.size a
  inb_S500x99x64_S500x1x64_0_97_0 : ∀ a, (![0, 97, 0] : Fin 3 → Nat) a + S500x1x64.size a ≤ S500x99x64.size a
  inb_S500x99x64_S500x1x64_0_98_0 : ∀ a, (![0, 98, 0] : Fin 3 → Nat) a + S500x1x64.size a ≤ S500x99x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S500x16x64.size a ≤ S10000x16x64.size a
  hwx0_0 : ∀ i : grid0.Coords, EltTy.bits .f32 = 32 ∨ (Rect.block (s := S10000x16x64) S500x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S500x16x64.size a ≤ S10000x16x64.size a
  hwx0_1 : ∀ i : grid0.Coords, EltTy.bits .f32 = 32 ∨ (Rect.block (s := S10000x16x64) S500x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S500x99x64.size a ≤ S10000x99x64.size a
  hwx0_2 : ∀ i : grid0.Coords, EltTy.bits .f32 = 32 ∨ (Rect.block (s := S10000x99x64) S500x99x64.size (cc0_transform_2 i) (hinb0_2 i)).WholeWords (EltTy.packing .f32)

variable [Facts₀]

abbrev win0_0 : Pipeline.Window sig grid0 :=
  Pipeline.Window.ofSpec (Memref.whole main_arg0) S500x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S500x99x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x16x64 : Shape := ⟨3, ![10000, 16, 64]⟩
abbrev S353 : Shape := ⟨1, ![353]⟩
abbrev S_ : Shape := ⟨0, ![]⟩
abbrev S353x1 : Shape := ⟨2, ![353, 1]⟩
abbrev S10000x353x64 : Shape := ⟨3, ![10000, 353, 64]⟩
abbrev S1x353x1 : Shape := ⟨3, ![1, 353, 1]⟩
abbrev S10000x99x64 : Shape := ⟨3, ![10000, 99, 64]⟩

abbrev nBuf : Space → Nat
  | .hbm => 33
  | .vmem => 0
  | .smem => 0
  | _ => 0

abbrev bufTy : (tb : Table) → Fin (tcTables nBuf tb) → BufTy
  | .hbm, ⟨0, _⟩ => ⟨S10000x16x64, .f32⟩
  | .hbm, ⟨1, _⟩ => ⟨S10000x16x64, .f32⟩
  | .hbm, ⟨2, _⟩ => ⟨S353, .i32⟩
  | .hbm, ⟨3, _⟩ => ⟨S353, .i1⟩
  | .hbm, ⟨4, _⟩ => ⟨S353, .f32⟩
  | .hbm, ⟨5, _⟩ => ⟨S353, .i32⟩
  | .hbm, ⟨6, _⟩ => ⟨S353, .i1⟩
  | .hbm, ⟨7, _⟩ => ⟨S353, .i32⟩
  | .hbm, ⟨8, _⟩ => ⟨S353, .i1⟩
  | .hbm, ⟨9, _⟩ => ⟨S_, .i32⟩
  | .hbm, ⟨10, _⟩ => ⟨S353, .i32⟩
  | .hbm, ⟨11, _⟩ => ⟨S353, .i32⟩
  | .hbm, ⟨12, _⟩ => ⟨S353, .i32⟩
  | .hbm, ⟨13, _⟩ => ⟨S353x1, .i32⟩
  | .hbm, ⟨14, _⟩ => ⟨S10000x353x64, .f32⟩
  | .hbm, ⟨15, _⟩ => ⟨S1x353x1, .f32⟩
  | .hbm, ⟨16, _⟩ => ⟨S10000x353x64, .f32⟩
  | .hbm, ⟨17, _⟩ => ⟨S10000x353x64, .f32⟩
  | .hbm, ⟨18, _⟩ => ⟨S_, .i32⟩
  | .hbm, ⟨19, _⟩ => ⟨S353, .i32⟩
  | .hbm, ⟨20, _⟩ => ⟨S353, .i32⟩
  | .hbm, ⟨21, _⟩ => ⟨S353, .i32⟩
  | .hbm, ⟨22, _⟩ => ⟨S353x1, .i32⟩
  | .hbm, ⟨23, _⟩ => ⟨S10000x353x64, .f32⟩
  | .hbm, ⟨24, _⟩ => ⟨S10000x353x64, .f32⟩
  | .hbm, ⟨25, _⟩ => ⟨S_, .f32⟩
  | .hbm, ⟨26, _⟩ => ⟨S10000x99x64, .f32⟩
  | .hbm, ⟨27, _⟩ => ⟨S_, .i32⟩
  | .hbm, ⟨28, _⟩ => ⟨S353, .i32⟩
  | .hbm, ⟨29, _⟩ => ⟨S353, .i32⟩
  | .hbm, ⟨30, _⟩ => ⟨S353, .i32⟩
  | .hbm, ⟨31, _⟩ => ⟨S353x1, .i32⟩
  | .hbm, ⟨32, _⟩ => ⟨S10000x99x64, .f32⟩
  | _, _ => ⟨S10000x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_6 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_7 : Ref sig .tc := ⟨.hbm, 25, rfl⟩
abbrev main_v14 : Ref sig .tc := ⟨.hbm, 26, rfl⟩
abbrev main_c_8 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S353 : S_.BroadcastsInDim S353 (![] : Fin 0 → Fin S353.rank)
  bcast_S353_S353x1_0 : S353.BroadcastsInDim S353x1 (![0] : Fin 1 → Fin S353x1.rank)
  bcast_S353_S1x353x1_1 : S353.BroadcastsInDim S1x353x1 (![1] : Fin 1 → Fin S1x353x1.rank)
  bcast_S1x353x1_S10000x353x64_0_1_2 : S1x353x1.BroadcastsInDim S10000x353x64 (![0, 1, 2] : Fin 3 → Fin S10000x353x64.rank)
  bcast_S_S10000x99x64 : S_.BroadcastsInDim S10000x99x64 (![] : Fin 0 → Fin S10000x99x64.rank)
  gather_S10000x16x64_S353x1_S10000x353x64_02_1_n_n_1_1_10000164_wf : GatherDims.WF S10000x16x64 S353x1 S10000x353x64 [0, 2] [1] [] [1] [] 1 ![10000, 1, 64]
  scatter_S10000x99x64_S353x1_S10000x353x64_02_1_1_1_wf : ScatterDims.WF S10000x99x64 S353x1 S10000x353x64 [0, 2] [1] [1] 1

variable [Facts₀]

def gather_S10000x16x64_S353x1_S10000x353x64_02_1_n_n_1_1_10000164 : GatherDims S10000x16x64 S353x1 S10000x353x64 where
  offsetDims := [0, 2]
  collapsedSliceDims := [1]
  operandBatchingDims := []
  startIndicesBatchingDims := []
  startIndexMap := [1]
  indexVectorDim := 1
  sliceSizes := ![10000, 1, 64]
  wf := gather_S10000x16x64_S353x1_S10000x353x64_02_1_n_n_1_1_10000164_wf
def scatter_S10000x99x64_S353x1_S10000x353x64_02_1_1_1 : ScatterDims S10000x99x64 S353x1 S10000x353x64 where
  updateWindowDims := [0, 2]
  insertedWindowDims := [1]
  scatterDimsToOperandDims := [1]
  indexVectorDim := 1
  wf := scatter_S10000x99x64_S353x1_S10000x353x64_02_1_1_1_wf

class Facts : Prop extends Facts₀ where

variable [Facts]
-- ==== Proof.Spec.lean ====
/-
  The contraction both programs compute, as one function of the two argument arrays.

  The arguments are two arrays `X, Y` of shape `[B, 16, 64]`; the result has shape `[B, 99, 64]`. A fixed table lists
  353 product terms: term `e` multiplies row `m₁(e)` of `X` by row `m₂(e)` of `Y` and by a coefficient `γ(e)`, and is
  added into output row `k(e)`. So, for every batch entry `b` and channel `c`,

      out[b, k, c] = ∑_{e : k(e) = k}  X[b, m₁(e), c] · Y[b, m₂(e), c] · γ(e).

  Here the terms of one output row are kept as a list (the table `grp`), and the row's value is the terms added from
  the left in the list's order. Over the extended reals addition is commutative and associative, so this is the sum
  of the list in any order or grouping (`sumOf_eq_sum`); multiplication is commutative and associative too, so the
  three factors of a term may be taken in any order (`termOf_eq`). No finiteness of the inputs is needed for either.
-/
import proofs.«134383_j12713103196326_1_alg».proof.Proof.GroupTable
import Idealize.ShloMosaic.PureOps.Ideal
import Idealize.ShloMosaic.PureOps.Ideal.Laws
import Idealize.ShloMosaic.Lib.ValueIdx

noncomputable section

namespace Cert.TensorProduct

open Idealize.ShloMosaic Idealize.ShloMosaic.ValueIdx

/-- A product term: the row of the first factor, the row of the second factor, the coefficient's float word. -/
abbrev Term := Fin 16 × Fin 16 × BitVec 32

/-- The value of one term at given rows `xr` of `X` and `yr` of `Y` (both at one batch entry and channel):
    `(x · y) · γ`. -/
def termOf (xr yr : Fin 16 → EReal) (t : Term) : EReal := (xr t.1 * yr t.2.1) * Ideal.ofBits .f32 t.2.2

/-- The terms of a list added from the left, starting from the first term; zero for the empty list. -/
def sumOf (xr yr : Fin 16 → EReal) : List Term → EReal
  | [] => Ideal.ofBits .f32 0x00000000#32
  | t :: ts => ts.foldl (fun acc u => acc + termOf xr yr u) (termOf xr yr t)

/-- Output row `k` at one batch entry and channel, from the rows of the two arguments there. -/
def rowK (k : Fin 99) (xr yr : Fin 16 → EReal) : EReal := sumOf xr yr (grp k)

/-- THE RESULT, entry by entry: at `(b, k, c)` output row `k` of the rows `X[b, ·, c]` and `Y[b, ·, c]`. Stated for
    any number `B` of batch entries, so that it reads a block of 500 of them and the whole array alike. -/
def G {B : Nat} (X Y : (⟨3, ![B, 16, 64]⟩ : Shape).Idx → EReal) : (⟨3, ![B, 99, 64]⟩ : Shape).Idx → EReal :=
  fun i => rowK (i 1) (fun m => X (ix3 (i 0) m (i 2))) (fun m => Y (ix3 (i 0) m (i 2)))

theorem G_apply {B : Nat} (X Y : (⟨3, ![B, 16, 64]⟩ : Shape).Idx → EReal) (b : Fin B) (k : Fin 99) (c : Fin 64) :
    G X Y (ix3 b k c) = rowK k (fun m => X (ix3 b m c)) (fun m => Y (ix3 b m c)) := rfl

/-- Adding a list's values one by one onto `a` is `a` plus the list's sum. -/
theorem foldl_add_eq (h : Term → EReal) (a : EReal) (ts : List Term) :
    ts.foldl (fun acc u => acc + h u) a = a + (ts.map h).sum := by
  induction ts generalizing a with
  | nil => simp
  | cons t ts ih => rw [List.foldl_cons, ih, List.map_cons, List.sum_cons, add_assoc]

/-- A row's value is zero plus the sum of its terms' values. -/
theorem sumOf_eq_sum (xr yr : Fin 16 → EReal) (L : List Term) :
    sumOf xr yr L = Ideal.ofBits .f32 0x00000000#32 + (L.map (termOf xr yr)).sum := by
  cases L with
  | nil => simp [sumOf]
  | cons t ts => rw [sumOf, foldl_add_eq, List.map_cons, List.sum_cons, Ideal.ofBits_zero_f32, zero_add]

/-- The three factors of a term in the other order: `(x · γ) · y`. -/
theorem termOf_eq (xr yr : Fin 16 → EReal) (t : Term) :
    termOf xr yr t = (xr t.1 * Ideal.ofBits .f32 t.2.2) * yr t.2.1 := by
  unfold termOf; exact mul_right_comm _ _ _

end Cert.TensorProduct

end
-- ==== Proof.Pieces.lean ====
/-
  What the kernel body leaves in one output block is the specification's function of the two input blocks.

  The body handles a block of 500 batch entries. It writes the output block row by row: 99 stores, store `k` filling
  row `k` (all batch entries and channels) with the value it has accumulated for that row — for each term of the row,
  row `m₁` of the first input block times row `m₂` of the second times the coefficient, the terms added from the left.
  Read at `(b, k, c)`, store `k`'s value is therefore `rowK k` of the rows `x0[b, ·, c]`, `x1[b, ·, c]`: the same products,
  in the same order, as the group table lists for row `k`. The 99 rows tile the block, so the block as a whole is the
  function `G` of the two input blocks.
-/
import proofs.«134383_j12713103196326_1_alg».proof.Proof.FrameKernelIdeal
import proofs.«134383_j12713103196326_1_alg».proof.Proof.Spec
import Idealize.ShloMosaic.Lib.Pipeline.FrameBody
import Idealize.ShloMosaic.Lib.Pipeline.Value

noncomputable section

namespace Cert.TensorProduct

open Idealize.ShloMosaic Idealize.ShloMosaic.ValueIdx Cert.KernelIdeal Cert.KernelIdeal.Gen Cert.KernelIdeal.GenP

/-- Every index of a `[500, 1, 64]` row is `(b, 0, c)`. -/
theorem exists_row_idx (x : S500x1x64.Idx) : ∃ (b : Fin 500) (c : Fin 64), x = ix3 b 0 c :=
  ⟨x 0, x 2, by
    funext a
    match a with
    | ⟨0, _⟩ => rfl
    | ⟨1, h⟩ => exact Fin.ext (Nat.lt_one_iff.mp (x ⟨1, h⟩).isLt)
    | ⟨2, _⟩ => rfl⟩

/-- A unit-height rectangle at row `m` lies inside a block of `N` rows only if `m < N`. -/
theorem row_lt {N m : Nat} (inb : ∀ a, (![0, m, 0] : Fin 3 → Nat) a + S500x1x64.size a ≤ (⟨3, ![500, N, 64]⟩ : Shape).size a) : m < N := by
  have h := inb 1
  change m + 1 ≤ N at h
  omega

/-- Where the unit-height rectangle at row `m` of a `[500, N, 64]` block puts its entry `(b, 0, c)`: at `(b, m, c)`. -/
theorem row_idx {N : Nat} (m : Nat)
    (inb : ∀ a, (![0, m, 0] : Fin 3 → Nat) a + S500x1x64.size a ≤ (⟨3, ![500, N, 64]⟩ : Shape).size a) (b : Fin 500) (c : Fin 64) :
    (Rect.unit (s := ⟨3, ![500, N, 64]⟩) ![0, m, 0] S500x1x64.size inb).idx (ix3 b 0 c) = ix3 b ⟨m, row_lt inb⟩ c := by
  refine funext fun a => Fin.ext ?_
  match a with
  | ⟨0, _⟩ => show 0 + 1 * b.val = b.val; omega
  | ⟨1, _⟩ => show m + 1 * 0 = m; omega
  | ⟨2, _⟩ => show 0 + 1 * c.val = c.val; omega

/-- The same for the rectangle's embedding of its indices. -/
theorem emb_row {N : Nat} (k : Nat)
    (inb : ∀ a, (![0, k, 0] : Fin 3 → Nat) a + S500x1x64.size a ≤ (⟨3, ![500, N, 64]⟩ : Shape).size a) (b : Fin 500) (c : Fin 64) :
    (Rect.unit (s := ⟨3, ![500, N, 64]⟩) ![0, k, 0] S500x1x64.size inb).emb (ix3 b 0 c) = ix3 b ⟨k, row_lt inb⟩ c :=
  row_idx k inb b c

/-- Unfolds the body's named values to the operations they stand for, and reads every vector operation at an index:
    products, sums and splats entry by entry, a change of shape between `[500, 1, 64]` and `[500, 64]` there and back as
    the identity on indices. -/
macro "unfold_values" : tactic => `(tactic| simp only [
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228,
    k0_pay229, k0_pay230, k0_pay231, k0_pay232, k0_pay233, k0_pay234, k0_pay235,
    shapeCast, mulf_apply, addf_apply, broadcast_apply, Shape.reshapeEquiv_reshapeEquiv, Shape.reshapeEquiv_self])

/-- One store: its value at `(b, 0, c)` is the specification's row at `(b, k, c)`. Both sides are unfolded to the sum
    of products over the same entries of the two blocks, the row's terms read off the group table. -/
macro "row_store" : tactic => `(tactic| (
  intro x
  obtain ⟨b, c, hx⟩ := exists_row_idx x
  subst hx
  rw [emb_row, G_apply]
  unfold_values
  simp only [View.ld, row_idx, rowK, grp, sumOf, List.foldl_cons, List.foldl_nil, termOf]
  rfl))

set_option maxRecDepth 16384 in
set_option maxHeartbeats 4000000 in
/-- THE OUTPUT BLOCK after the body, from the two input blocks: the specification's function of them. -/
theorem out_eq (x0 x1 : Vec Ideal S500x16x64 .f32) : out0_2 (F := Ideal) x0 x1 = G x0 x1 := by
  funext y
  unfold out0_2
  refine View.canon_apply_of_pieces (Val := Elt Ideal) (G x0 x1) _ ?_ y (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals first | row_store | (intro p hp; cases hp)

end Cert.TensorProduct

end
-- ==== Proof.KernelValue.lean ====
/-
  The kernel's result array is the specification's function of the two argument arrays.

  The grid has 20 points; point `t` stages batch entries `500 t … 500 t + 499` of each argument (all 16 rows, all 64
  channels) and writes back the same batch entries of the result (all 99 rows). What point `t` writes back is the
  specification's function `G` of its two input blocks; `G` reads, for a batch entry and a channel, only the rows of the
  arguments at that batch entry and channel, so `G` of the blocks is the block of `G` of the whole arrays. The 20 blocks
  tile the result array, so it ends holding `G` of the arguments.
-/
import proofs.«134383_j12713103196326_1_alg».proof.Proof.Pieces
import Idealize.ShloMosaic.Lib.Pipeline.Value

noncomputable section

namespace Cert.KernelIdeal.HandValue

open Cert.KernelIdeal Cert.KernelIdeal.Gen Cert.KernelIdeal.GenP Idealize.ShloMosaic Idealize.ShloMosaic.TcCoe Idealize.SL.Sem
open Idealize.ShloMosaic.ValueIdx Cert.TensorProduct
open Idealize.ShloMosaic.Pipeline (Dat)

variable (m : (ℓ : Loc nD τ sig) → Buf (Elt Ideal) ℓ) (ρ : Dev nD → PrngReg)

/-- The two argument arrays as the region finds them, and the two input windows' blocks at a point. -/
abbrev xarr (c : Dev nD) : Vec Ideal S10000x16x64 .f32 := V m c main_arg0
abbrev yarr (c : Dev nD) : Vec Ideal S10000x16x64 .f32 := V m c main_arg1
abbrev xblk (c : Dev nD) (t : Fin cfg0.N) : Vec Ideal S500x16x64 .f32 := iblk m c 0 t
abbrev yblk (c : Dev nD) (t : Fin cfg0.N) : Vec Ideal S500x16x64 .f32 := iblk m c 1 t

/-- The index maps over the 20 grid points: every window takes block `t` on the batch axis, block 0 on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- `G` at an entry depends only on the output row and on the arguments' rows at that batch entry and channel: two pairs
    of arrays that agree there give the same value. -/
theorem G_congr {B B' : Nat} (X' Y' : (⟨3, ![B', 16, 64]⟩ : Shape).Idx → EReal) (X Y : (⟨3, ![B, 16, 64]⟩ : Shape).Idx → EReal)
    (j : (⟨3, ![B', 99, 64]⟩ : Shape).Idx) (i : (⟨3, ![B, 99, 64]⟩ : Shape).Idx) (h1 : (i 1).val = (j 1).val)
    (hx : ∀ r : Fin 16, X' (ix3 (j 0) r (j 2)) = X (ix3 (i 0) r (i 2)))
    (hy : ∀ r : Fin 16, Y' (ix3 (j 0) r (j 2)) = Y (ix3 (i 0) r (i 2))) :
    G X' Y' j = G X Y i := by
  unfold G
  have hk : (j 1 : Fin 99) = (i 1 : Fin 99) := Fin.ext h1.symm
  rw [show (fun r => X' (ix3 (j 0) r (j 2))) = fun r => X (ix3 (i 0) r (i 2)) from funext hx,
    show (fun r => Y' (ix3 (j 0) r (j 2))) = fun r => Y (ix3 (i 0) r (i 2)) from funext hy]
  exact congrArg (fun k => rowK k _ _) hk

/-- WHAT POINT `t` WRITES BACK is block `t` of `G` of the argument arrays. -/
theorem flushed_eq (c : Dev nD) (t : Fin cfg0.N) :
    (dats m 0 c).flushed 2 t = ((cfg0.win 2).blk t).view.read (Elt Ideal) (G (xarr m c) (yarr m c)) := by
  show (cfg0.win 2).cut (grid0.coords t) ((dats m 0 c).after 2 t) = _
  rw [after0_2]
  show (cfg0.win 2).cut (grid0.coords t) (out0_2 (xblk m c t) (yblk m c t)) = _
  rw [out_eq]
  obtain ⟨e00, e01, e02, e10, e11, e12, e20, e21, e22⟩ := idx_facts t
  funext j
  show G (xblk m c t) (yblk m c t) j = G (xarr m c) (yarr m c) (((cfg0.win 2).blk t).view.emb j)
  refine G_congr _ _ _ _ j _ ?_ (fun r => ?_) (fun r => ?_)
  · show win0_2.index t (1 : Fin 3) * 99 + 1 * (j 1).val = (j 1).val
    rw [e21]; omega
  · show V m c main_arg0 (((cfg0.win 0).blk t).view.emb (ix3 (j 0) r (j 2))) = V m c main_arg0 _
    refine congrArg (V m c main_arg0) (funext fun a => Fin.ext ?_)
    match a with
    | ⟨0, _⟩ => show win0_0.index t (0 : Fin 3) * 500 + 1 * (j 0).val = win0_2.index t (0 : Fin 3) * 500 + 1 * (j 0).val; rw [e00, e20]
    | ⟨1, _⟩ => show win0_0.index t (1 : Fin 3) * 16 + 1 * r.val = r.val; rw [e01]; omega
    | ⟨2, _⟩ => show win0_0.index t (2 : Fin 3) * 64 + 1 * (j 2).val = win0_2.index t (2 : Fin 3) * 64 + 1 * (j 2).val; rw [e02, e22]
  · show V m c main_arg1 (((cfg0.win 1).blk t).view.emb (ix3 (j 0) r (j 2))) = V m c main_arg1 _
    refine congrArg (V m c main_arg1) (funext fun a => Fin.ext ?_)
    match a with
    | ⟨0, _⟩ => show win0_1.index t (0 : Fin 3) * 500 + 1 * (j 0).val = win0_2.index t (0 : Fin 3) * 500 + 1 * (j 0).val; rw [e10, e20]
    | ⟨1, _⟩ => show win0_1.index t (1 : Fin 3) * 16 + 1 * r.val = r.val; rw [e11]; omega
    | ⟨2, _⟩ => show win0_1.index t (2 : Fin 3) * 64 + 1 * (j 2).val = win0_2.index t (2 : Fin 3) * 64 + 1 * (j 2).val; rw [e12, e22]

/-- An index of the result array is in point `t`'s block iff each coordinate is in the block's range on its axis. -/
theorem mem_blk (t : Fin cfg0.N) (i : S10000x99x64.Idx) :
    i ∈ ((cfg0.win 2).blk t).view.set ↔ ∀ a : Fin 3, win0_2.index t a * S500x99x64.size a ≤ (i a).val
      ∧ (i a).val < win0_2.index t a * S500x99x64.size a + S500x99x64.size a := by
  show i ∈ ((View.whole main_v0).slice (win0_2.rect t)).set ↔ _
  rw [View.set_slice_whole, Rect.mem_set_unit]
  exact Iff.rfl

/-- THE RESULT ARRAY after the run: batch entry `n` lies in the block of point `n / 500`, so the blocks cover the array. -/
theorem final (c : Dev nD) : (dats m 0 c).arrAt 2 cfg0.N = G (xarr m c) (yarr m c) :=
  (dats m 0 c).arrAt_eq_of_cover 2 (G (xarr m c) (yarr m c)) (fun t _ => flushed_eq m c t) fun (i : S10000x99x64.Idx) => by
    have hi0 : (i 0).val < 10000 := (i 0).isLt
    have hi1 : (i 1).val < 99 := (i 1).isLt
    have hi2 : (i 2).val < 64 := (i 2).isLt
    have hN : cfg0.N = 20 := N_0
    have hq : (i 0).val / 500 < cfg0.N := by omega
    obtain ⟨-, -, -, -, -, -, e20, e21, e22⟩ := idx_facts ⟨(i 0).val / 500, hq⟩
    refine ⟨⟨(i 0).val / 500, hq⟩, flush0_2 _, ?_⟩
    rw [mem_blk]
    intro a
    match a with
    | ⟨0, _⟩ =>
      show win0_2.index ⟨(i 0).val / 500, hq⟩ (0 : Fin 3) * 500 ≤ (i 0).val
        ∧ (i 0).val < win0_2.index ⟨(i 0).val / 500, hq⟩ (0 : Fin 3) * 500 + 500
      rw [e20]; show (i 0).val / 500 * 500 ≤ (i 0).val ∧ (i 0).val < (i 0).val / 500 * 500 + 500; omega
    | ⟨1, _⟩ =>
      show win0_2.index ⟨(i 0).val / 500, hq⟩ (1 : Fin 3) * 99 ≤ (i 1).val
        ∧ (i 1).val < win0_2.index ⟨(i 0).val / 500, hq⟩ (1 : Fin 3) * 99 + 99
      rw [e21]; omega
    | ⟨2, _⟩ =>
      show win0_2.index ⟨(i 0).val / 500, hq⟩ (2 : Fin 3) * 64 ≤ (i 2).val
        ∧ (i 2).val < win0_2.index ⟨(i 0).val / 500, hq⟩ (2 : Fin 3) * 64 + 64
      rw [e22]; omega

/-- The run, read: the result array at `G` of the arguments' contents at launch, the arguments unchanged. After the frame's
    run the result array is what the pipeline's write-backs leave (`final`), and each argument array, staged by an input
    window that never writes back, is as the region found it, which is as launched. -/
theorem run : θ_run defs (onTc (τ := τ) (main (F := Ideal))) ⟨m, fun _ => 0, ρ⟩ fun r => ∀ c : Dev nD,
      r.2.mem ((c : Thread nD τ).loc main_v0) = G (B := 10000) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.HandValue

end
-- ==== Proof.RefRun.lean ====
/-
  The reference program's run, read back as one term of the two argument arrays.

  The reference's @main is a straight line of 31 host operations: four tables of 353 words each (the row of `X`, the
  coefficient, the row of `Y`, the output row of every term), each index table passed through jnp's wrap of negative
  indices (add the axis length where the word is negative — here the mask is constantly false, so the table itself),
  the two gathers of rows on the middle axis, the two products, and the accumulating scatter into an array of zeros.
  Every weakly fair execution terminates with the result buffer holding `result X Y`, that composition applied to the
  arguments' contents at launch, and the arguments unchanged.
-/
import proofs.«134383_j12713103196326_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 31 operations, in order. -/
abbrev ops : List (HloOp τ sig (Elt F)) :=
  [ nullary main_c (fun i => lit0 (S353.rowMajor i)),
    nullary main_c_0 (constantI S353 1 0#1),
    nullary main_cst (fun i => FloatOps.ofBits .f32 (lit1 (S353.rowMajor i))),
    nullary main_c_1 (fun i => lit2 (S353.rowMajor i)),
    nullary main_c_2 (constantI S353 1 0#1),
    nullary main_c_3 (fun i => lit3 (S353.rowMajor i)),
    nullary main_c_4 (constantI S353 1 0#1),
    nullary main_c_5 (constantI S_ 32 16#32),
    unary main_c_5 main_v0 (broadcastInDim S353 ![] bcast_S_S353 : (⟨S_, .i32⟩ : BufTy).Contents (Elt F) → (⟨S353, .i32⟩ : BufTy).Contents (Elt F)),
    binary main_c main_v0 main_v1 (addi : (⟨S353, .i32⟩ : BufTy).Contents (Elt F) → (⟨S353, .i32⟩ : BufTy).Contents (Elt F) → (⟨S353, .i32⟩ : BufTy).Contents (Elt F)),
    ternary main_c_0 main_v1 main_c main_v2 (select : (⟨S353, .i1⟩ : BufTy).Contents (Elt F) → (⟨S353, .i32⟩ : BufTy).Contents (Elt F) → (⟨S353, .i32⟩ : BufTy).Contents (Elt F) → (⟨S353, .i32⟩ : BufTy).Contents (Elt F)),
    unary main_v2 main_v3 (broadcastInDim S353x1 ![0] bcast_S353_S353x1_0 : (⟨S353, .i32⟩ : BufTy).Contents (Elt F) → (⟨S353x1, .i32⟩ : BufTy).Contents (Elt F)),
    binary main_arg0 main_v3 main_v4 ((fun x i => Host.gather gather_S10000x16x64_S353x1_S10000x353x64_02_1_n_n_1_1_10000164 x i) : (⟨S10000x16x64, .f32⟩ : BufTy).Contents (Elt F) → (⟨S353x1, .i32⟩ : BufTy).Contents (Elt F) → (⟨S10000x353x64, .f32⟩ : BufTy).Contents (Elt F)),
    unary main_cst main_v5 (broadcastInDim S1x353x1 ![1] bcast_S353_S1x353x1_1 : (⟨S353, .f32⟩ : BufTy).Contents (Elt F) → (⟨S1x353x1, .f32⟩ : BufTy).Contents (Elt F)),
    unary main_v5 main_v6 (broadcastInDim S10000x353x64 ![0, 1, 2] bcast_S1x353x1_S10000x353x64_0_1_2 : (⟨S1x353x1, .f32⟩ : BufTy).Contents (Elt F) → (⟨S10000x353x64, .f32⟩ : BufTy).Contents (Elt F)),
    binary main_v4 main_v6 main_v7 (mulf : (⟨S10000x353x64, .f32⟩ : BufTy).Contents (Elt F) → (⟨S10000x353x64, .f32⟩ : BufTy).Contents (Elt F) → (⟨S10000x353x64, .f32⟩ : BufTy).Contents (Elt F)),
    nullary main_c_6 (constantI S_ 32 16#32),
    unary main_c_6 main_v8 (broadcastInDim S353 ![] bcast_S_S353 : (⟨S_, .i32⟩ : BufTy).Contents (Elt F) → (⟨S353, .i32⟩ : BufTy).Contents (Elt F)),
    binary main_c_1 main_v8 main_v9 (addi : (⟨S353, .i32⟩ : BufTy).Contents (Elt F) → (⟨S353, .i32⟩ : BufTy).Contents (Elt F) → (⟨S353, .i32⟩ : BufTy).Contents (Elt F)),
    ternary main_c_2 main_v9 main_c_1 main_v10 (select : (⟨S353, .i1⟩ : BufTy).Contents (Elt F) → (⟨S353, .i32⟩ : BufTy).Contents (Elt F) → (⟨S353, .i32⟩ : BufTy).Contents (Elt F) → (⟨S353, .i32⟩ : BufTy).Contents (Elt F)),
    unary main_v10 main_v11 (broadcastInDim S353x1 ![0] bcast_S353_S353x1_0 : (⟨S353, .i32⟩ : BufTy).Contents (Elt F) → (⟨S353x1, .i32⟩ : BufTy).Contents (Elt F)),
    binary main_arg1 main_v11 main_v12 ((fun x i => Host.gather gather_S10000x16x64_S353x1_S10000x353x64_02_1_n_n_1_1_10000164 x i) : (⟨S10000x16x64, .f32⟩ : BufTy).Contents (Elt F) → (⟨S353x1, .i32⟩ : BufTy).Contents (Elt F) → (⟨S10000x353x64, .f32⟩ : BufTy).Contents (Elt F)),
    binary main_v7 main_v12 main_v13 (mulf : (⟨S10000x353x64, .f32⟩ : BufTy).Contents (Elt F) → (⟨S10000x353x64, .f32⟩ : BufTy).Contents (Elt F) → (⟨S10000x353x64, .f32⟩ : BufTy).Contents (Elt F)),
    nullary main_cst_7 (constant S_ .f32 0x00000000#32),
    unary main_cst_7 main_v14 (broadcastInDim S10000x99x64 ![] bcast_S_S10000x99x64 : (⟨S_, .f32⟩ : BufTy).Contents (Elt F) → (⟨S10000x99x64, .f32⟩ : BufTy).Contents (Elt F)),
    nullary main_c_8 (constantI S_ 32 99#32),
    unary main_c_8 main_v15 (broadcastInDim S353 ![] bcast_S_S353 : (⟨S_, .i32⟩ : BufTy).Contents (Elt F) → (⟨S353, .i32⟩ : BufTy).Contents (Elt F)),
    binary main_c_3 main_v15 main_v16 (addi : (⟨S353, .i32⟩ : BufTy).Contents (Elt F) → (⟨S353, .i32⟩ : BufTy).Contents (Elt F) → (⟨S353, .i32⟩ : BufTy).Contents (Elt F)),
    ternary main_c_4 main_v16 main_c_3 main_v17 (select : (⟨S353, .i1⟩ : BufTy).Contents (Elt F) → (⟨S353, .i32⟩ : BufTy).Contents (Elt F) → (⟨S353, .i32⟩ : BufTy).Contents (Elt F) → (⟨S353, .i32⟩ : BufTy).Contents (Elt F)),
    unary main_v17 main_v18 (broadcastInDim S353x1 ![0] bcast_S353_S353x1_0 : (⟨S353, .i32⟩ : BufTy).Contents (Elt F) → (⟨S353x1, .i32⟩ : BufTy).Contents (Elt F)),
    ternary main_v14 main_v18 main_v13 main_v19 ((fun x i u => Host.scatterAdd scatter_S10000x99x64_S353x1_S10000x353x64_02_1_1_1 x i u) : (⟨S10000x99x64, .f32⟩ : BufTy).Contents (Elt F) → (⟨S353x1, .i32⟩ : BufTy).Contents (Elt F) → (⟨S10000x353x64, .f32⟩ : BufTy).Contents (Elt F) → (⟨S10000x99x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., ternary_bufs_sub .., unary_bufs_sub .., ternary_bufs_sub ..⟩

/-- An index table as the program hands it to a gather or the scatter: the table's words, each replaced by itself plus
    the axis length `len` where the (constantly false) mask is set, as a column `[353, 1]`. -/
def idxCol (lit : Fin 353 → BitVec 32) (len : BitVec 32) : IVec S353x1 32 :=
  broadcastInDim S353x1 ![0] bcast_S353_S353x1_0
    (select (constantI S353 1 0#1)
      (addi (fun i => lit (S353.rowMajor i)) (broadcastInDim S353 ![] bcast_S_S353 (constantI S_ 32 len)))
      (fun i => lit (S353.rowMajor i)))

/-- The coefficient table spread over batch entries and channels: `[353] → [1, 353, 1] → [10000, 353, 64]`. -/
def coefArr : (⟨S10000x353x64, .f32⟩ : BufTy).Contents (Elt F) :=
  broadcastInDim S10000x353x64 ![0, 1, 2] bcast_S1x353x1_S10000x353x64_0_1_2
    (broadcastInDim S1x353x1 ![1] bcast_S353_S1x353x1_1 (fun i => FloatOps.ofBits .f32 (lit1 (S353.rowMajor i))))

/-- THE REFERENCE'S RESULT as one term of the argument arrays: the products `(X[:, m₁, :] · γ) · Y[:, m₂, :]`
    scatter-added at the output rows into zeros. -/
def result (X Y : (⟨S10000x16x64, .f32⟩ : BufTy).Contents (Elt F)) : (⟨S10000x99x64, .f32⟩ : BufTy).Contents (Elt F) :=
  Host.scatterAdd scatter_S10000x99x64_S353x1_S10000x353x64_02_1_1_1
    (broadcastInDim S10000x99x64 ![] bcast_S_S10000x99x64 (constant S_ .f32 0x00000000#32))
    (idxCol lit3 99#32)
    (mulf (mulf (Host.gather gather_S10000x16x64_S353x1_S10000x353x64_02_1_n_n_1_1_10000164 X (idxCol lit0 16#32)) coefArr)
      (Host.gather gather_S10000x16x64_S353x1_S10000x353x64_02_1_n_n_1_1_10000164 Y (idxCol lit2 16#32)))

/-- On every device, for any float values, from any memory with zero counters: every weakly fair execution of @main
    terminates with the result at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (by unfold result idxCol coefArr; after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HandRun

end
-- ==== Proof.RefTable.lean ====
/-
  The reference's term table, row by row, is the group table.

  The reference lists its 353 terms in four tables of words: for term `e` the row of `X`, the coefficient, the row of
  `Y`, and the output row it is added into. A row index is a signed word, clamped into the sixteen rows when it
  selects a row to read, and compared unclamped with the output row when it selects where to add. Collecting, for each
  output row `k`, the terms `e` whose output-row word is `k` (in increasing `e`) gives exactly the list `grp k`: this
  is a finite check over the 99 × 353 pairs, done by evaluation. With it the reference's row — zero plus the sum, over
  the terms landing in row `k`, of `(x · γ) · y` — is the specification's row `rowK k`.
-/
import proofs.«134383_j12713103196326_1_alg».proof.ReferenceIdeal
import proofs.«134383_j12713103196326_1_alg».proof.Proof.Spec
import Mathlib.Algebra.BigOperators.Fin

noncomputable section

namespace Cert.TensorProduct

open Idealize.ShloMosaic
open Cert.ReferenceIdeal (lit0 lit1 lit2 lit3)
open scoped BigOperators

/-- The row a signed index word selects for reading: its value clamped into `[0, 15]`. -/
def rowOf (w : BitVec 32) : Fin 16 := ⟨min w.toInt.toNat (16 - 1), by omega⟩

/-- Term `e` of the reference's tables. -/
def termAt (e : Fin 353) : Term := (rowOf (lit0 e), rowOf (lit2 e), lit1 e)

/-- The terms whose output-row word is `k`, in increasing order, are the list `grp k` — for all 99 rows at once, as one
    boolean evaluated. -/
theorem terms_of_row_all :
    (List.finRange 99).all (fun k => decide (((List.finRange 353).filter
      (fun e => decide ((lit3 e).toInt = (k.val : ℤ)))).map termAt = grp k)) = true := by
  decide +kernel

theorem terms_of_row (k : Fin 99) :
    ((List.finRange 353).filter (fun e => decide ((lit3 e).toInt = (k.val : ℤ)))).map termAt = grp k :=
  of_decide_eq_true (List.all_eq_true.mp terms_of_row_all k (List.mem_finRange k))

/-- A sum over a list of values kept or replaced by zero is the sum over the kept entries. -/
theorem sum_map_ite_eq_filter {α : Type} (l : List α) (p : α → Prop) [DecidablePred p] (f : α → EReal) :
    (l.map (fun e => if p e then f e else 0)).sum = ((l.filter (fun e => decide (p e))).map f).sum := by
  induction l with
  | nil => rfl
  | cons a l ih =>
    by_cases h : p a
    · simp [h, ih]
    · simp [h, ih]

/-- The reference's output row `k` at one batch entry and channel: zero plus the sum over the terms landing in row `k`
    of `(x · γ) · y`. -/
def refRow (k : Fin 99) (xr yr : Fin 16 → EReal) : EReal :=
  Ideal.ofBits .f32 0x00000000#32
    + ∑ e ∈ Finset.univ.filter (fun e : Fin 353 => (lit3 e).toInt = (k.val : ℤ)),
        (xr (rowOf (lit0 e)) * Ideal.ofBits .f32 (lit1 e)) * yr (rowOf (lit2 e))

/-- The reference's row is the specification's row. -/
theorem refRow_eq_rowK (k : Fin 99) (xr yr : Fin 16 → EReal) : refRow k xr yr = rowK k xr yr := by
  unfold refRow rowK
  rw [sumOf_eq_sum, ← terms_of_row k, List.map_map]
  congr 1
  rw [Finset.sum_filter, Fin.sum_univ_def, sum_map_ite_eq_filter]
  refine congrArg List.sum (List.map_congr_left fun e _ => ?_)
  exact (termOf_eq xr yr (termAt e)).symm

end Cert.TensorProduct

end
-- ==== Proof.LibMidGatherScatter.lean ====
/-
  The middle axis of a three-axis table gathered by, and scattered-and-added at, a column of integer indices, read
  at one element.

  The table has `B` slabs of `N` rows of `C` entries; the indices are an `E × 1` column of machine integers.

  * The gather on the middle axis (what `x[:, idx, :]` lowers to: the first and last axes are offset axes, the
    middle axis is collapsed and is the one the start index names) reads, at `(b, e, c)`, the table's entry
    `(b, n, c)` where `n` is the row the index `e` names — the index read as a signed integer and clamped into
    `[0, N - 1]`.
  * The accumulating scatter on the middle axis (what `out.at[:, idx, :].add(upd)` lowers to: the update window
    runs over the first and last axes, the middle axis is the inserted one and the one the index names), at the
    ideal values, leaves at `(b, n, c)` the operand's entry plus the sum of the updates' entries `(b, e, c)` over
    the positions `e` whose index, read as a signed integer and NOT clamped, is `n`; an index that names no row
    contributes nowhere.

  On the way: a rank-3 index set is the product of its three coordinate ranges, so a sum over it is the triple sum
  over the coordinates.
-/
import Idealize.ShloMosaic.PureOps.Ideal
import Idealize.ShloMosaic.Lib.ValueIdx

noncomputable section

namespace Cert.MidAxis

open Idealize.ShloMosaic Idealize.ShloMosaic.ValueIdx
open scoped BigOperators

/-! ## A sum over a rank-3 index set, coordinate by coordinate -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The gather on the middle axis -/

/-- The dimension numbers of a middle-axis gather: operand `B × N × C`, start indices `E × 1`, result
    `B × E × C`. -/
abbrev midGatherDims (B N E C : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

section
variable {B N E C w : Nat}
  (wf : GatherDims.WF ⟨3, ![B, N, C]⟩ ⟨2, ![E, 1]⟩ ⟨3, ![B, E, C]⟩ [0, 2] [1] [] [1] [] 1 ![B, 1, C])
  (idx : IVec ⟨2, ![E, 1]⟩ w) (b : Fin B) (e : Fin E) (c : Fin C)

/-- On the first axis (an offset axis) the result entry `(b, e, c)` reads the operand at `b`: the start is `0`
    there and the offset coordinate is the result's own first coordinate. -/
theorem midGather_pos0 :
    (midGatherDims B N E C wf).start (ix3 b e c) idx (0 : Fin 3) + (midGatherDims B N E C wf).batchCoord (ix3 b e c) (0 : Fin 3)
      + (midGatherDims B N E C wf).offCoord (ix3 b e c) (0 : Fin 3) = b.val := by
  rw [GatherDims.batchCoord_eq_zero _ _ _ List.not_mem_nil]
  have hs : (midGatherDims B N E C wf).start (ix3 b e c) idx (0 : Fin 3) = 0 := by
    unfold GatherDims.start
    rw [dif_neg (show (0 : Fin 3) ∉ ([1] : List (Fin 3)) from by decide)]
  have hm : (0 : Fin 3) ∈ (midGatherDims B N E C wf).sKept :=
    (GatherDims.mem_sKept _ _).mpr ⟨show (0 : Fin 3) ∉ ([1] : List (Fin 3)) from by decide, List.not_mem_nil⟩
  rw [hs]
  unfold GatherDims.offCoord
  rw [dif_pos hm]
  simp only [Nat.zero_add]
  rfl

/-- On the middle axis (the collapsed one, named by the start index) the result entry `(b, e, c)` reads the
    operand at index `e`'s signed value clamped into `[0, N - 1]`: there is no offset coordinate there. -/
theorem midGather_pos1 :
    (midGatherDims B N E C wf).start (ix3 b e c) idx (1 : Fin 3) + (midGatherDims B N E C wf).batchCoord (ix3 b e c) (1 : Fin 3)
      + (midGatherDims B N E C wf).offCoord (ix3 b e c) (1 : Fin 3)
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (midGatherDims B N E C wf).startIndexMap from List.mem_singleton.mpr rfl)]
  have hsi : (midGatherDims B N E C wf).siIdx (ix3 b e c) ⟨List.idxOf (1 : Fin 3) (midGatherDims B N E C wf).startIndexMap,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]
  rfl

/-- On the last axis (an offset axis) the result entry `(b, e, c)` reads the operand at `c`. -/
theorem midGather_pos2 :
    (midGatherDims B N E C wf).start (ix3 b e c) idx (2 : Fin 3) + (midGatherDims B N E C wf).batchCoord (ix3 b e c) (2 : Fin 3)
      + (midGatherDims B N E C wf).offCoord (ix3 b e c) (2 : Fin 3) = c.val := by
  rw [GatherDims.batchCoord_eq_zero _ _ _ List.not_mem_nil]
  have hs : (midGatherDims B N E C wf).start (ix3 b e c) idx (2 : Fin 3) = 0 := by
    unfold GatherDims.start
    rw [dif_neg (show (2 : Fin 3) ∉ ([1] : List (Fin 3)) from by decide)]
  have hm : (2 : Fin 3) ∈ (midGatherDims B N E C wf).sKept :=
    (GatherDims.mem_sKept _ _).mpr ⟨show (2 : Fin 3) ∉ ([1] : List (Fin 3)) from by decide, List.not_mem_nil⟩
  rw [hs]
  unfold GatherDims.offCoord
  rw [dif_pos hm]
  simp only [Nat.zero_add]
  rfl

end

/-- THE MIDDLE-AXIS GATHER READ AT `(b, e, c)`: the operand's entry `(b, n, c)`, `n` the row that index `e`
    names, read signed and clamped into `[0, N - 1]`. -/
theorem gather_mid_apply {α : Type} {B N E C w : Nat} (hN : 0 < N)
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ w) (b : Fin B) (e : Fin E) (c : Fin C) :
    Host.gather (midGatherDims B N E C wf) x idx (ix3 b e c)
      = x (ix3 b ⟨min (idx (ix2 e (0 : Fin 1))).toInt.toNat (N - 1), by omega⟩ c) := by
  unfold Host.gather
  congr 1
  funext a
  refine Fin.ext ?_
  match a with
  | ⟨0, _⟩ => exact midGather_pos0 wf idx b e c
  | ⟨1, _⟩ => exact midGather_pos1 wf idx b e c
  | ⟨2, _⟩ => exact midGather_pos2 wf idx b e c

/-! ## The accumulating scatter on the middle axis -/

/-- The dimension numbers of a middle-axis scatter: operand `B × N × C`, scatter indices `E × 1`, updates
    `B × E × C`. -/
abbrev midScatterDims (B N E C : Nat)
    (wf : ScatterDims.WF ⟨3, ![B, N, C]⟩ ⟨2, ![E, 1]⟩ ⟨3, ![B, E, C]⟩ [0, 2] [1] [1] 1) :
    ScatterDims ⟨3, ![B, N, C]⟩ ⟨2, ![E, 1]⟩ ⟨3, ![B, E, C]⟩ where
  updateWindowDims := [0, 2]
  insertedWindowDims := [1]
  scatterDimsToOperandDims := [1]
  indexVectorDim := 1
  wf := wf

section
variable {B N E C w : Nat} (wf : ScatterDims.WF ⟨3, ![B, N, C]⟩ ⟨2, ![E, 1]⟩ ⟨3, ![B, E, C]⟩ [0, 2] [1] [1] 1)
  (idx : IVec ⟨2, ![E, 1]⟩ w) (b : Fin B) (e : Fin E) (c : Fin C)

/-- On the first axis (a window axis) the update `(b, e, c)` lands at `b`: the start is `0` there, the window
    coordinate is the update's own first coordinate. -/
theorem midScatter_pos0 :
    (midScatterDims B N E C wf).start (ix3 b e c) idx (0 : Fin 3) + ((midScatterDims B N E C wf).window (ix3 b e c) (0 : Fin 3) : ℤ)
      = (b.val : ℤ) := by
  have hs : (midScatterDims B N E C wf).start (ix3 b e c) idx (0 : Fin 3) = 0 := by
    unfold ScatterDims.start
    rw [dif_neg (show (0 : Fin 3) ∉ ([1] : List (Fin 3)) from by decide)]
  have hw : (midScatterDims B N E C wf).window (ix3 b e c) (0 : Fin 3) = b.val := by
    have h0 : (0 : Fin 3) ∈ (midScatterDims B N E C wf).sKept := show (0 : Fin 3) ∈ ([0, 2] : List (Fin 3)) from by decide
    unfold ScatterDims.window
    rw [dif_pos h0]
    rfl
  rw [hs, hw, zero_add]

/-- On the middle axis (the inserted axis, the one the index names) the update `(b, e, c)` lands at the signed
    value of index `e`: the window coordinate is `0` there. -/
theorem midScatter_pos1 :
    (midScatterDims B N E C wf).start (ix3 b e c) idx (1 : Fin 3) + ((midScatterDims B N E C wf).window (ix3 b e c) (1 : Fin 3) : ℤ)
      = (idx (ix2 e (0 : Fin 1))).toInt := by
  have hw : (midScatterDims B N E C wf).window (ix3 b e c) (1 : Fin 3) = 0 := by
    have h1 : (1 : Fin 3) ∉ (midScatterDims B N E C wf).sKept := show (1 : Fin 3) ∉ ([0, 2] : List (Fin 3)) from by decide
    unfold ScatterDims.window
    rw [dif_neg h1]
  rw [hw]
  unfold ScatterDims.start
  rw [dif_pos (show (1 : Fin 3) ∈ ([1] : List (Fin 3)) from by decide)]
  have hsi : (midScatterDims B N E C wf).siIdx (ix3 b e c) ⟨List.idxOf (1 : Fin 3) (midScatterDims B N E C wf).scatterDimsToOperandDims,
      List.idxOf_lt_length_iff.2 (show (1 : Fin 3) ∈ ([1] : List (Fin 3)) from by decide)⟩ = ix2 e (0 : Fin 1) := by
    funext a; refine Fin.ext ?_
    match a with
    | ⟨0, _⟩ => rfl
    | ⟨1, _⟩ => rfl
  rw [hsi]
  simp

/-- On the last axis (a window axis) the update `(b, e, c)` lands at `c`. -/
theorem midScatter_pos2 :
    (midScatterDims B N E C wf).start (ix3 b e c) idx (2 : Fin 3) + ((midScatterDims B N E C wf).window (ix3 b e c) (2 : Fin 3) : ℤ)
      = (c.val : ℤ) := by
  have hs : (midScatterDims B N E C wf).start (ix3 b e c) idx (2 : Fin 3) = 0 := by
    unfold ScatterDims.start
    rw [dif_neg (show (2 : Fin 3) ∉ ([1] : List (Fin 3)) from by decide)]
  have hw : (midScatterDims B N E C wf).window (ix3 b e c) (2 : Fin 3) = c.val := by
    have h2 : (2 : Fin 3) ∈ (midScatterDims B N E C wf).sKept := show (2 : Fin 3) ∈ ([0, 2] : List (Fin 3)) from by decide
    unfold ScatterDims.window
    rw [dif_pos h2]
    rfl
  rw [hs, hw, zero_add]

end

section
variable {B N E C w : Nat} (wf : ScatterDims.WF ⟨3, ![B, N, C]⟩ ⟨2, ![E, 1]⟩ ⟨3, ![B, E, C]⟩ [0, 2] [1] [1] 1)
  (idx : IVec ⟨2, ![E, 1]⟩ w)

/-- The update `(b, e, c)` lands on `(b', n, c')` exactly when `b = b'`, `c = c'` and index `e`, read signed,
    is `n`. -/
theorem midScatter_resultIdx (b : Fin B) (e : Fin E) (c : Fin C) (b' : Fin B) (n : Fin N) (c' : Fin C) :
    (midScatterDims B N E C wf).resultIdx? (ix3 b e c) idx = some (ix3 b' n c')
      ↔ b = b' ∧ c = c' ∧ (idx (ix2 e (0 : Fin 1))).toInt = (n.val : ℤ) := by
  have p0 := midScatter_pos0 wf idx b e c
  have p1 := midScatter_pos1 wf idx b e c
  have p2 := midScatter_pos2 wf idx b e c
  unfold ScatterDims.resultIdx?
  constructor
  · intro h
    split at h
    · rename_i hb
      have hf := Option.some.inj h
      have h0 : ((midScatterDims B N E C wf).start (ix3 b e c) idx (0 : Fin 3)
          + ((midScatterDims B N E C wf).window (ix3 b e c) (0 : Fin 3) : ℤ)).toNat = b'.val :=
        congrArg (fun f => (f (0 : Fin 3)).val) hf
      have h1 : ((midScatterDims B N E C wf).start (ix3 b e c) idx (1 : Fin 3)
          + ((midScatterDims B N E C wf).window (ix3 b e c) (1 : Fin 3) : ℤ)).toNat = n.val :=
        congrArg (fun f => (f (1 : Fin 3)).val) hf
      have h2 : ((midScatterDims B N E C wf).start (ix3 b e c) idx (2 : Fin 3)
          + ((midScatterDims B N E C wf).window (ix3 b e c) (2 : Fin 3) : ℤ)).toNat = c'.val :=
        congrArg (fun f => (f (2 : Fin 3)).val) hf
      have b1 := (hb (1 : Fin 3)).1
      rw [p0] at h0
      rw [p1] at h1 b1
      rw [p2] at h2
      exact ⟨Fin.ext (by omega), Fin.ext (by omega), by omega⟩
    · exact absurd h (by simp)
  · rintro ⟨rfl, rfl, h1⟩
    have hb : ∀ a : Fin 3, 0 ≤ (midScatterDims B N E C wf).start (ix3 b e c) idx a + ((midScatterDims B N E C wf).window (ix3 b e c) a : ℤ)
        ∧ (midScatterDims B N E C wf).start (ix3 b e c) idx a + ((midScatterDims B N E C wf).window (ix3 b e c) a : ℤ)
          < (((⟨3, ![B, N, C]⟩ : Shape).size a : ℕ) : ℤ) := by
      intro a
      match a with
      | ⟨0, _⟩ =>
        show 0 ≤ (midScatterDims B N E C wf).start (ix3 b e c) idx (0 : Fin 3) + ((midScatterDims B N E C wf).window (ix3 b e c) (0 : Fin 3) : ℤ)
          ∧ (midScatterDims B N E C wf).start (ix3 b e c) idx (0 : Fin 3) + ((midScatterDims B N E C wf).window (ix3 b e c) (0 : Fin 3) : ℤ) < ((B : ℕ) : ℤ)
        rw [p0]
        exact ⟨by omega, by exact_mod_cast b.isLt⟩
      | ⟨1, _⟩ =>
        show 0 ≤ (midScatterDims B N E C wf).start (ix3 b e c) idx (1 : Fin 3) + ((midScatterDims B N E C wf).window (ix3 b e c) (1 : Fin 3) : ℤ)
          ∧ (midScatterDims B N E C wf).start (ix3 b e c) idx (1 : Fin 3) + ((midScatterDims B N E C wf).window (ix3 b e c) (1 : Fin 3) : ℤ) < ((N : ℕ) : ℤ)
        rw [p1, h1]
        exact ⟨by omega, by exact_mod_cast n.isLt⟩
      | ⟨2, _⟩ =>
        show 0 ≤ (midScatterDims B N E C wf).start (ix3 b e c) idx (2 : Fin 3) + ((midScatterDims B N E C wf).window (ix3 b e c) (2 : Fin 3) : ℤ)
          ∧ (midScatterDims B N E C wf).start (ix3 b e c) idx (2 : Fin 3) + ((midScatterDims B N E C wf).window (ix3 b e c) (2 : Fin 3) : ℤ) < ((C : ℕ) : ℤ)
        rw [p2]
        exact ⟨by omega, by exact_mod_cast c.isLt⟩
    rw [dif_pos hb]
    congr 1
    funext a
    refine Fin.ext ?_
    match a with
    | ⟨0, _⟩ =>
      show ((midScatterDims B N E C wf).start (ix3 b e c) idx (0 : Fin 3) + ((midScatterDims B N E C wf).window (ix3 b e c) (0 : Fin 3) : ℤ)).toNat = b.val
      rw [p0]; simp
    | ⟨1, _⟩ =>
      show ((midScatterDims B N E C wf).start (ix3 b e c) idx (1 : Fin 3) + ((midScatterDims B N E C wf).window (ix3 b e c) (1 : Fin 3) : ℤ)).toNat = n.val
      rw [p1, h1]; simp
    | ⟨2, _⟩ =>
      show ((midScatterDims B N E C wf).start (ix3 b e c) idx (2 : Fin 3) + ((midScatterDims B N E C wf).window (ix3 b e c) (2 : Fin 3) : ℤ)).toNat = c.val
      rw [p2]; simp

end

/-- Of a double sum over `(b', c')` whose term vanishes unless `b' = b` and `c' = c`, only the term at
    `(b, c)` is left. -/
theorem sum_sum_ite_pair {M : Type*} [AddCommMonoid M] {B C : Nat} (b : Fin B) (c : Fin C) (P : Prop) [Decidable P]
    (g : Fin B → Fin C → M) :
    (∑ b' : Fin B, ∑ c' : Fin C, if b' = b ∧ c' = c ∧ P then g b' c' else 0) = if P then g b c else 0 := by
  rw [Finset.sum_eq_single b]
  · rw [Finset.sum_eq_single c]
    · by_cases hP : P
      · simp [hP]
      · simp [hP]
    · intro c' _ hc
      rw [if_neg (fun h => hc h.2.1)]
    · intro h; exact absurd (Finset.mem_univ c) h
  · intro b' _ hb
    refine Finset.sum_eq_zero fun c' _ => ?_
    rw [if_neg (fun h => hb h.1)]
  · intro h; exact absurd (Finset.mem_univ b) h

/-- THE ACCUMULATING MIDDLE-AXIS SCATTER READ AT `(b, n, c)`, at the ideal values: the operand's entry plus the
    sum of the updates' entries `(b, e, c)` over the positions `e` whose index, read signed, is `n`. The sum over
    all update indices `(b', e, c')` is taken position by position; within position `e` only `b' = b`, `c' = c`
    can land on `(b, n, c)`. -/
theorem scatterAdd_mid_apply {B N E C w : Nat}
    (wf : ScatterDims.WF ⟨3, ![B, N, C]⟩ ⟨2, ![E, 1]⟩ ⟨3, ![B, E, C]⟩ [0, 2] [1] [1] 1)
    (x : (⟨3, ![B, N, C]⟩ : Shape).Idx → EReal) (idx : IVec ⟨2, ![E, 1]⟩ w)
    (upd : (⟨3, ![B, E, C]⟩ : Shape).Idx → EReal) (b : Fin B) (n : Fin N) (c : Fin C) :
    Ideal.hostScatterAdd (midScatterDims B N E C wf) x idx upd (ix3 b n c)
      = x (ix3 b n c) + ∑ e ∈ Finset.univ.filter (fun e : Fin E => (idx (ix2 e (0 : Fin 1))).toInt = (n.val : ℤ)), upd (ix3 b e c) := by
  unfold Ideal.hostScatterAdd
  congr 1
  rw [Finset.sum_filter, sum_idx3, Finset.sum_comm, Finset.sum_filter]
  refine Finset.sum_congr rfl fun e _ => ?_
  simp only [midScatter_resultIdx wf idx _ e _ b n c]
  exact sum_sum_ite_pair b c _ (fun b' c' => upd (ix3 b' e c'))

end Cert.MidAxis

end
-- ==== Proof.RefValue.lean ====
/-
  The reference's result, read at one entry.

  At `(b, k, c)` the reference's result is zero plus the sum, over the terms `e` whose output-row word is `k`, of
  `(X[b, m₁(e), c] · γ(e)) · Y[b, m₂(e), c]`: the accumulating scatter on the middle axis keeps, at a fixed batch entry
  and channel, the updates whose (unclamped, signed) index is `k`; each update is the product of a gathered row of `X`
  (its index clamped into the sixteen rows), the coefficient spread over batch entries and channels, and a gathered
  row of `Y`; and each index column holds its table's words, the wrap of negative indices being masked off. By the
  table check this is the specification's row, so the result array is the specification's function `G` of `X` and `Y`.
-/
import proofs.«134383_j12713103196326_1_alg».proof.Proof.RefRun
import proofs.«134383_j12713103196326_1_alg».proof.Proof.RefTable
import proofs.«134383_j12713103196326_1_alg».proof.Proof.LibMidGatherScatter

noncomputable section

namespace Cert.ReferenceIdeal.HandRun

open Cert.ReferenceIdeal Cert.ReferenceIdeal.Gen Idealize.ShloMosaic Idealize.ShloMosaic.ValueIdx
open Cert.TensorProduct Cert.MidAxis
open scoped BigOperators

/-- A vector of 353 entries made a column `[353, 1]`, read at `(e, 0)`: entry `e`. -/
theorem bcast_col_apply {α : Type} (v : S353.Idx → α) (e : Fin 353) :
    broadcastInDim S353x1 ![0] bcast_S353_S353x1_0 v (ix2 e (0 : Fin 1)) = v (ix1 e) := by
  simp only [broadcastInDim]
  congr 1
  funext a
  have ha : a = 0 := Subsingleton.elim _ _
  subst ha
  apply Fin.ext
  split
  · next h1 => exact absurd h1 (by decide)
  · rfl

/-- The row-major position of a one-axis index is its coordinate. -/
theorem rowMajor_ix1 (e : Fin 353) : S353.rowMajor (ix1 e) = e :=
  Fin.ext (Shape.rowMajor_val_one (ix1 e))

/-- Entry `(e, 0)` of an index column is word `e` of its table: the mask of negative indices is constantly false. -/
theorem idxCol_apply (lit : Fin 353 → BitVec 32) (len : BitVec 32) (e : Fin 353) :
    idxCol lit len (ix2 e (0 : Fin 1)) = lit e := by
  unfold idxCol
  rw [bcast_col_apply, select_apply]
  show Scalar.select 0#1 _ (lit (S353.rowMajor (ix1 e))) = lit e
  rw [select_zero, rowMajor_ix1]

/-- The coefficient array at `(b, e, c)` is the value of coefficient word `e`. -/
theorem coefArr_apply (b : Fin 10000) (e : Fin 353) (c : Fin 64) :
    coefArr (F := Ideal) (ix3 b e c) = Ideal.ofBits .f32 (lit1 e) := by
  unfold coefArr
  simp only [broadcastInDim]
  show Ideal.ofBits .f32 (lit1 (S353.rowMajor _)) = _
  refine congrArg (fun n => Ideal.ofBits .f32 (lit1 n)) ?_
  refine Fin.ext ((Shape.rowMajor_val_one _).trans ?_)
  split
  · next h1 => exact absurd h1 (by decide)
  · split
    · next h2 => exact absurd h2 (by decide)
    · rfl

/-- THE REFERENCE'S RESULT AT `(b, k, c)`: zero plus the sum, over the terms whose output-row word is `k`, of
    `(X[b, m₁, c] · γ) · Y[b, m₂, c]`. The scatter's sum over all update positions keeps, at a fixed batch entry and
    channel, exactly the terms landing in row `k`; each gather reads the row its (clamped) index word names. -/
theorem result_apply (X Y : (⟨S10000x16x64, .f32⟩ : BufTy).Contents (Elt Ideal)) (b : Fin 10000) (k : Fin 99) (c : Fin 64) :
    result (F := Ideal) X Y (ix3 b k c) = refRow k (fun m => X (ix3 b m c)) (fun m => Y (ix3 b m c)) := by
  unfold result refRow
  refine (scatterAdd_mid_apply (B := 10000) (N := 99) (E := 353) (C := 64) scatter_S10000x99x64_S353x1_S10000x353x64_02_1_1_1_wf _ _ _ b k c).trans ?_
  refine congrArg₂ (· + ·) rfl ?_
  simp only [idxCol_apply]
  refine Finset.sum_congr rfl fun e _ => ?_
  rw [mulf_apply, mulf_apply, coefArr_apply]
  have hx := gather_mid_apply (B := 10000) (N := 16) (E := 353) (C := 64) (by decide)
    gather_S10000x16x64_S353x1_S10000x353x64_02_1_n_n_1_1_10000164_wf X (idxCol lit0 16#32) b e c
  have hy := gather_mid_apply (B := 10000) (N := 16) (E := 353) (C := 64) (by decide)
    gather_S10000x16x64_S353x1_S10000x353x64_02_1_n_n_1_1_10000164_wf Y (idxCol lit2 16#32) b e c
  simp only [idxCol_apply] at hx hy
  exact congrArg₂ (· * ·) (congrArg (· * Ideal.ofBits .f32 (lit1 e)) hx) hy

end Cert.ReferenceIdeal.HandRun

namespace Cert.ReferenceIdeal.HandRun

open Idealize.ShloMosaic Idealize.ShloMosaic.ValueIdx Cert.TensorProduct

/-- THE REFERENCE'S RESULT IS `G` of the two arguments, entry by entry. -/
theorem result_eq_G (X Y : (⟨S10000x16x64, .f32⟩ : BufTy).Contents (Elt Ideal)) :
    result (F := Ideal) X Y = G (B := 10000) X Y := by
  funext i
  obtain ⟨b, k, c, rfl⟩ : ∃ (b : Fin 10000) (k : Fin 99) (c : Fin 64), i = ix3 b k c := ⟨i 0, i 1, i 2, eq_ix3 i⟩
  rw [result_apply, refRow_eq_rowK]
  rfl

end Cert.ReferenceIdeal.HandRun

end
-- ==== Proof.lean ====
/-
  The certificate: the kernel (a Pallas tensor-product kernel) against its jnp reference, over the extended reals.

  Both programs compute, for every batch entry `b`, output row `k` and channel `c`,
      out[b, k, c] = ∑_{e : k(e) = k}  x[b, m₁(e), c] · y[b, m₂(e), c] · γ(e)
  over a fixed table of 353 terms (Clebsch–Gordan coefficients `γ` as float words, the same words in both programs).
  The kernel walks the 99 output rows of a block of 500 batch entries and adds each row's terms from the left as
  `(x · y) · γ`; the reference gathers the rows of `x` and `y`, forms `(x · γ) · y` for all 353 terms at once and
  scatter-adds them onto zeros by output row. Over the extended reals `+` and `·` are commutative and associative, so the
  two are the same function `G` of the arguments (Proof/Spec.lean); no finiteness of the inputs is used.

  * Proof/Pieces.lean, Proof/KernelValue.lean: the kernel's result array is `G` of its arguments.
  * Proof/RefRun.lean, Proof/RefValue.lean (over Proof/LibMidGatherScatter.lean, Proof/RefTable.lean): so is the reference's.
  * The frames: the kernel's two from the frame certificate of each program (Proof/FrameKernel.lean,
    Proof/FrameKernelIdeal.lean); the reference's from its run with the result dropped.
  * `preserves`: the idealization rewrote nothing, so the claim is `True`.
-/
import proofs.«134383_j12713103196326_1_alg».proof.Defs
import proofs.«134383_j12713103196326_1_alg».proof.Proof.Gen.Kernel
import proofs.«134383_j12713103196326_1_alg».proof.Proof.Gen.KernelIdeal
import proofs.«134383_j12713103196326_1_alg».proof.Proof.Gen.ReferenceIdeal
import proofs.«134383_j12713103196326_1_alg».proof.Proof.Gen.Pre_finite_inputs
import proofs.«134383_j12713103196326_1_alg».proof.Proof.FrameKernel
import proofs.«134383_j12713103196326_1_alg».proof.Proof.FrameKernelIdeal
import proofs.«134383_j12713103196326_1_alg».proof.Proof.KernelValue
import proofs.«134383_j12713103196326_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation: nothing to preserve. -/
theorem preserves : Cert.preserves_Kernel_KernelIdeal := trivial

/-- From memories agreeing on the arguments both programs end with the result array at `G` of the arguments. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact Cert.ReferenceIdeal.HandRun.result_eq_G _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
